-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x32 : Shape := ⟨2, ![1600000, 32]⟩
abbrev S1600000x16 : Shape := ⟨2, ![1600000, 16]⟩
abbrev S32x32 : Shape := ⟨2, ![32, 32]⟩
abbrev S16x32 : Shape := ⟨2, ![16, 32]⟩
abbrev S1x32 : Shape := ⟨2, ![1, 32]⟩
abbrev S_ : Shape := ⟨0, ![]⟩

class Facts : Prop where
  bcast_S_S1600000x32 : S_.BroadcastsInDim S1600000x32 (![] : Fin 0 → Fin S1600000x32.rank)
  reducesTo_S1600000x32_S_d0_1 : S1600000x32.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S32x32 : S_.BroadcastsInDim S32x32 (![] : Fin 0 → Fin S32x32.rank)
  reducesTo_S32x32_S_d0_1 : S32x32.ReducesTo [0, 1] S_
  bcast_S_S16x32 : S_.BroadcastsInDim S16x32 (![] : Fin 0 → Fin S16x32.rank)
  reducesTo_S16x32_S_d0_1 : S16x32.ReducesTo [0, 1] S_
  bcast_S_S1x32 : S_.BroadcastsInDim S1x32 (![] : Fin 0 → Fin S1x32.rank)
  reducesTo_S1x32_S_d0_1 : S1x32.ReducesTo [0, 1] S_

variable [Facts]

def fn_part1 {F : FTy → Type} [FloatOps F] (main_arg4 : FVec F S16x32 .f32) (main_arg5 : FVec F S32x32 .f32) (main_arg6 : FVec F S1x32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S16x32 .f32 := Host.absf main_arg4
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S1x32 .f32 := Host.absf main_arg6
  let main_cst_10 : FVec F S_ .f32 := constant S_ .f32 0x7F800000#32
  let main_v30 : FVec F S1x32 .f32 := broadcastInDim S1x32 ![] bcast_S_S1x32 main_cst_10
  let main_v31 : IVec S1x32 1 := cmpf .olt main_v29 main_v30
  let main_c_11 : IVec S_ 1 := constantI S_ 1 1#1
  let main_v32 : IVec S_ 1 := (fun x v => Host.reduce IntOp.andi x v reducesTo_S1x32_S_d0_1 h_S_) main_v31 main_c_11
  let main_v33 : IVec S_ 1 := andi main_v28 main_v32
  main_v33

def fn {F : FTy → Type} [FloatOps F] (main_arg0 : FVec F S1600000x32 .f32) (main_arg1 : FVec F S1600000x16 .f32) (main_arg2 : FVec F S1600000x32 .f32) (main_arg3 : FVec F S32x32 .f32) (main_arg4 : FVec F S16x32 .f32) (main_arg5 : FVec F S32x32 .f32) (main_arg6 : FVec F S1x32 .f32) : IVec S_ 1 :=
  let main_v0 : FVec F S1600000x32 .f32 := Host.absf main_arg0
  let main_cst : FVec F S_ .f32 := constant S_ .f32 0x7F800000#32
  let main_v1 : FVec F S1600000x32 .f32 := broadcastInDim S1600000x32 ![] bcast_S_S1600000x32 main_cst
  let main_v2 : IVec S1600000x32 1 := cmpf .olt main_v0 main_v1
  let main_c : IVec S_ 1 := constantI S_ 1 1#1
  let main_v3 : IVec S_ 1 := (fun x v => Host.reduce IntOp.andi x v reducesTo_S1600000x32_S_d0_1 h_S_) main_v2 main_c
  let main_v4 : FVec F S1600000x16 .f32 := Host.absf main_arg1
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S1600000x32 .f32 := Host.absf main_arg2
  let main_cst_2 : FVec F S_ .f32 := constant S_ .f32 0x7F800000#32
  let main_v10 : FVec F S1600000x32 .f32 := broadcastInDim S1600000x32 ![] bcast_S_S1600000x32 main_cst_2
  let main_v11 : IVec S1600000x32 1 := cmpf .olt main_v9 main_v10
  let main_c_3 : IVec S_ 1 := constantI S_ 1 1#1
  let main_v12 : IVec S_ 1 := (fun x v => Host.reduce IntOp.andi x v reducesTo_S1600000x32_S_d0_1 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_arg5 main_arg6 main_v13 main_v16
-- ==== Kernel.lean ====
abbrev S1600000x32 : Shape := ⟨2, ![1600000, 32]⟩
abbrev S1600000x16 : Shape := ⟨2, ![1600000, 16]⟩
abbrev S32x32 : Shape := ⟨2, ![32, 32]⟩
abbrev S16x32 : Shape := ⟨2, ![16, 32]⟩
abbrev S1x32 : Shape := ⟨2, ![1, 32]⟩
abbrev S32x1600000 : Shape := ⟨2, ![32, 1600000]⟩
abbrev S16x1600000 : Shape := ⟨2, ![16, 1600000]⟩
abbrev S32x1 : Shape := ⟨2, ![32, 1]⟩
abbrev S1x32x1x1 : Shape := ⟨4, ![1, 32, 1, 1]⟩
abbrev S1x32x128x1 : Shape := ⟨4, ![1, 32, 128, 1]⟩
abbrev S32x128 : Shape := ⟨2, ![32, 128]⟩
abbrev S32x12800 : Shape := ⟨2, ![32, 12800]⟩
abbrev S16x12800 : Shape := ⟨2, ![16, 12800]⟩

abbrev nBuf : Space → Nat
  | .hbm => 16
  | .vmem => 12
  | .smem => 0
  | _ => 0

abbrev bufTy : (tb : Table) → Fin (tcTables nBuf tb) → BufTy
  | .hbm, ⟨0, _⟩ => ⟨S1600000x32, .f32⟩
  | .hbm, ⟨1, _⟩ => ⟨S1600000x16, .f32⟩
  | .hbm, ⟨2, _⟩ => ⟨S1600000x32, .f32⟩
  | .hbm, ⟨3, _⟩ => ⟨S32x32, .f32⟩
  | .hbm, ⟨4, _⟩ => ⟨S16x32, .f32⟩
  | .hbm, ⟨5, _⟩ => ⟨S32x32, .f32⟩
  | .hbm, ⟨6, _⟩ => ⟨S1x32, .f32⟩
  | .hbm, ⟨7, _⟩ => ⟨S32x1600000, .f32⟩
  | .hbm, ⟨8, _⟩ => ⟨S16x1600000, .f32⟩
  | .hbm, ⟨9, _⟩ => ⟨S32x1600000, .f32⟩
  | .hbm, ⟨10, _⟩ => ⟨S32x1, .f32⟩
  | .hbm, ⟨11, _⟩ => ⟨S1x32x1x1, .f32⟩
  | .hbm, ⟨12, _⟩ => ⟨S1x32x128x1, .f32⟩
  | .hbm, ⟨13, _⟩ => ⟨S32x128, .f32⟩
  | .hbm, ⟨14, _⟩ => ⟨S32x1600000, .f32⟩
  | .hbm, ⟨15, _⟩ => ⟨S1600000x32, .f32⟩
  | .local _ .vmem, ⟨0, _⟩ => ⟨S32x12800, .f32⟩
  | .local _ .vmem, ⟨1, _⟩ => ⟨S32x12800, .f32⟩
  | .local _ .vmem, ⟨2, _⟩ => ⟨S16x12800, .f32⟩
  | .local _ .vmem, ⟨3, _⟩ => ⟨S16x12800, .f32⟩
  | .local _ .vmem, ⟨4, _⟩ => ⟨S32x12800, .f32⟩
  | .local _ .vmem, ⟨5, _⟩ => ⟨S32x12800, .f32⟩
  | .local _ .vmem, ⟨6, _⟩ => ⟨S32x32, .f32⟩
  | .local _ .vmem, ⟨7, _⟩ => ⟨S16x32, .f32⟩
  | .local _ .vmem, ⟨8, _⟩ => ⟨S32x32, .f32⟩
  | .local _ .vmem, ⟨9, _⟩ => ⟨S32x128, .f32⟩
  | .local _ .vmem, ⟨10, _⟩ => ⟨S32x12800, .f32⟩
  | .local _ .vmem, ⟨11, _⟩ => ⟨S32x12800, .f32⟩
  | _, _ => ⟨S1600000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x12800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x12800 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x12800 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x12800 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S1600000x32_S32x1600000_1_0 : S1600000x32.Transposes [1, 0] S32x1600000
  transposes_S1600000x16_S16x1600000_1_0 : S1600000x16.Transposes [1, 0] S16x1600000
  shapeCasts_S1x32_S32x1 : S1x32.ShapeCasts S32x1
  shapeCasts_S32x1_S1x32x1x1 : S32x1.ShapeCasts S1x32x1x1
  bcast_S1x32x1x1_S1x32x128x1_0_1_2_3 : S1x32x1x1.BroadcastsInDim S1x32x128x1 (![0, 1, 2, 3] : Fin 4 → Fin S1x32x128x1.rank)
  shapeCasts_S1x32x128x1_S32x128 : S1x32x128x1.ShapeCasts S32x128
  inb_S32x32_S32x32_0_0 : ∀ a, (![0, 0] : Fin 2 → Nat) a + S32x32.size a ≤ S32x32.size a
  h_S32x32 : 0 < S32x32.numel
  inb_S32x12800_S32x12800_0_0 : ∀ a, (![0, 0] : Fin 2 → Nat) a + S32x12800.size a ≤ S32x12800.size a
  h_S32x12800 : 0 < S32x12800.numel
  shapeCasts_S32x12800_S32x12800 : S32x12800.ShapeCasts S32x12800
  inb_S16x32_S16x32_0_0 : ∀ a, (![0, 0] : Fin 2 → Nat) a + S16x32.size a ≤ S16x32.size a
  h_S16x32 : 0 < S16x32.numel
  inb_S16x12800_S16x12800_0_0 : ∀ a, (![0, 0] : Fin 2 → Nat) a + S16x12800.size a ≤ S16x12800.size a
  h_S16x12800 : 0 < S16x12800.numel
  shapeCasts_S16x12800_S16x12800 : S16x12800.ShapeCasts S16x12800
  inb_S32x128_S32x128_0_0 : ∀ a, (![0, 0] : Fin 2 → Nat) a + S32x128.size a ≤ S32x128.size a
  h_S32x128 : 0 < S32x128.numel
  shapeCasts_S32x128_S32x128 : S32x128.ShapeCasts S32x128
  slices_S32x128_o0_0_S32x1 : S32x128.Slices ![0, 0] S32x1
  broadcasts_S32x1_S32x12800 : S32x1.Broadcasts S32x12800
  transposes_S32x1600000_S1600000x32_1_0 : S32x1600000.Transposes [1, 0] S1600000x32
  dot_S32x32_S32x12800_S32x12800_0_0_1_1_n_n_wf : DotDims.WF S32x32 S32x12800 S32x12800 [0] [0] [1] [1] [] []
  dot_S16x32_S16x12800_S32x12800_0_0_1_1_n_n_wf : DotDims.WF S16x32 S16x12800 S32x12800 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x12800.size a ≤ S32x1600000.size a
  hwx0_0 : ∀ i : grid0.Coords, EltTy.bits .f32 = 32 ∨ (Rect.block (s := S32x1600000) S32x12800.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x12800.size a ≤ S16x1600000.size a
  hwx0_1 : ∀ i : grid0.Coords, EltTy.bits .f32 = 32 ∨ (Rect.block (s := S16x1600000) S16x12800.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x12800.size a ≤ S32x1600000.size a
  hwx0_2 : ∀ i : grid0.Coords, EltTy.bits .f32 = 32 ∨ (Rect.block (s := S32x1600000) S32x12800.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x32.size a ≤ S16x32.size a
  hwx0_4 : ∀ i : grid0.Coords, EltTy.bits .f32 = 32 ∨ (Rect.block (s := S16x32) S16x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x128.size a ≤ S32x128.size a
  hwx0_6 : ∀ i : grid0.Coords, EltTy.bits .f32 = 32 ∨ (Rect.block (s := S32x128) S32x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x12800.size a ≤ S32x1600000.size a
  hwx0_7 : ∀ i : grid0.Coords, EltTy.bits .f32 = 32 ∨ (Rect.block (s := S32x1600000) S32x12800.size (cc0_transform_7 i) (hinb0_7 i)).WholeWords (EltTy.packing .f32)

variable [Facts₀]

def dot_S32x32_S32x12800_S32x12800_0_0_1_1_n_n : DotDims S32x32 S32x12800 S32x12800 where
  lhsContracting := [0]
  rhsContracting := [0]
  lhsNonContracting := [1]
  rhsNonContracting := [1]
  lhsBatch := []
  rhsBatch := []
  wf := dot_S32x32_S32x12800_S32x12800_0_0_1_1_n_n_wf
def dot_S16x32_S16x12800_S32x12800_0_0_1_1_n_n : DotDims S16x32 S16x12800 S32x12800 where
  lhsContracting := [0]
  rhsContracting := [0]
  lhsNonContracting := [1]
  rhsNonContracting := [1]
  lhsBatch := []
  rhsBatch := []
  wf := dot_S16x32_S16x12800_S32x12800_0_0_1_1_n_n_wf

abbrev win0_0 : Pipeline.Window sig grid0 :=
  Pipeline.Window.ofSpec (Memref.whole main_v0) S32x12800.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x12800.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x12800.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S32x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S32x12800.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1600000x32 : Shape := ⟨2, ![1600000, 32]⟩
abbrev S1600000x16 : Shape := ⟨2, ![1600000, 16]⟩
abbrev S32x32 : Shape := ⟨2, ![32, 32]⟩
abbrev S16x32 : Shape := ⟨2, ![16, 32]⟩
abbrev S1x32 : Shape := ⟨2, ![1, 32]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1600000x32, .f32⟩
  | .hbm, ⟨1, _⟩ => ⟨S1600000x16, .f32⟩
  | .hbm, ⟨2, _⟩ => ⟨S1600000x32, .f32⟩
  | .hbm, ⟨3, _⟩ => ⟨S32x32, .f32⟩
  | .hbm, ⟨4, _⟩ => ⟨S16x32, .f32⟩
  | .hbm, ⟨5, _⟩ => ⟨S32x32, .f32⟩
  | .hbm, ⟨6, _⟩ => ⟨S1x32, .f32⟩
  | .hbm, ⟨7, _⟩ => ⟨S1600000x32, .f32⟩
  | .hbm, ⟨8, _⟩ => ⟨S1600000x32, .f32⟩
  | .hbm, ⟨9, _⟩ => ⟨S1600000x32, .f32⟩
  | .hbm, ⟨10, _⟩ => ⟨S1600000x32, .f32⟩
  | .hbm, ⟨11, _⟩ => ⟨S1600000x32, .f32⟩
  | .hbm, ⟨12, _⟩ => ⟨S1600000x32, .f32⟩
  | .hbm, ⟨13, _⟩ => ⟨S1600000x32, .f32⟩
  | .hbm, ⟨14, _⟩ => ⟨S_, .f32⟩
  | .hbm, ⟨15, _⟩ => ⟨S1600000x32, .f32⟩
  | .hbm, ⟨16, _⟩ => ⟨S1600000x32, .f32⟩
  | _, _ => ⟨S1600000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_v7 : Ref sig .tc := ⟨.hbm, 16, rfl⟩

abbrev nD : Nat := 1
abbrev τ : Topo := Topo.v7x

variable {F : FTy → Type} [FloatOps F]

class Facts₀ : Prop where
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  dot_S1600000x32_S32x32_S1600000x32_1_0_0_1_n_n_wf : DotDims.WF S1600000x32 S32x32 S1600000x32 [1] [0] [0] [1] [] []
  dot_S1600000x16_S16x32_S1600000x32_1_0_0_1_n_n_wf : DotDims.WF S1600000x16 S16x32 S1600000x32 [1] [0] [0] [1] [] []

variable [Facts₀]

def dot_S1600000x32_S32x32_S1600000x32_1_0_0_1_n_n : DotDims S1600000x32 S32x32 S1600000x32 where
  lhsContracting := [1]
  rhsContracting := [0]
  lhsNonContracting := [0]
  rhsNonContracting := [1]
  lhsBatch := []
  rhsBatch := []
  wf := dot_S1600000x32_S32x32_S1600000x32_1_0_0_1_n_n_wf
def dot_S1600000x16_S16x32_S1600000x32_1_0_0_1_n_n : DotDims S1600000x16 S16x32 S1600000x32 where
  lhsContracting := [1]
  rhsContracting := [0]
  lhsNonContracting := [0]
  rhsNonContracting := [1]
  lhsBatch := []
  rhsBatch := []
  wf := dot_S1600000x16_S16x32_S1600000x32_1_0_0_1_n_n_wf

class Facts : Prop extends Facts₀ where

variable [Facts]
-- ==== Proof.LibMatmulTransLeftAt.lean ====
/-
  A matrix product that contracts the FIRST axis of both operands, accumulated into zero, read at one entry over
  the extended reals.

  For dimension numbers with no batch axis that contract axis 0 of the left operand with axis 0 of the right — so that
  the left operand, a [K × A] matrix, is read at (k, row) and the right, a [K × B] matrix, at (k, column) — entry
  (p, q) of the product is `∑ₖ l[k, p] · r[k, q]`: the product `lᵀ · r`, no transpose ever being formed. The four facts
  about where the dimension numbers read their operands are hypotheses, so that the lemma serves any printed record
  of this kind.
-/
import Idealize.ShloMosaic.PureOps.Ideal.Laws
import Idealize.ShloMosaic.Lib.ValueIdx

noncomputable section

namespace Idealize.ShloMosaic.MatmulTransLeftAt

open Idealize.ShloMosaic Idealize.ShloMosaic.ValueIdx

/-- Entry (p, q) of `lᵀ · r` accumulated into zero is the sum over the shared first axis of `l[k, p] · r[k, q]`, for
    dimension numbers `D` whose one contracted axis has extent `K` (`hr`, `hs`) and which read the left operand at
    (k, row) (`hl0`, `hl1`) and the right at (k, column) (`hr0`, `hr1`). -/
theorem matmul_zero_transLeft_at {K A B : Nat} {φ₁ φ₂ : FTy}
    (D : DotDims (⟨2, ![K, A]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (q ⟨0, by omega⟩).val)
    (hl1 : ∀ (i : (⟨2, ![A, B]⟩ : Shape).Idx) (q : D.contr.Idx), (D.lhsIdx i q 1).val = (i 0).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![K, A]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 k p) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 k p := funext fun a => Fin.ext (by
    match a with
    | ⟨0, _⟩ => exact (hl0 _ _).trans hk
    | ⟨1, _⟩ => exact hl1 _ _)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulTransLeftAt

end
-- ==== Proof.BlockValue.lean ====
/-
  What one grid step stores, entry by entry.

  The body loads three weight matrices (32×32, 16×32, 32×32), the matching three blocks of transposed data (32, 16 and
  32 features by 12,800 edges) and the bias tile (32×128), and stores one 32×12,800 block. Each of its three matrix
  products contracts the FIRST axis of both operands, so entry (j, n) of a product is `Σₖ w[k, j] · x[k, n]`; the bias
  tile's lane 0 is broadcast along the edges; the three products and the bias are added left to right and the sum is
  cut off below at zero. So the stored entry (j, n) is

      max (((Σₖ w₁[k,j]·x₁[k,n] + Σₖ w₂[k,j]·x₂[k,n]) + Σₖ w₃[k,j]·x₃[k,n]) + bias[j,0]) 0.
-/
import proofs.«161981_g36034775613536_cont_8to1_b_1153_7_alg».proof.Proof.Gen.KernelIdeal.Skeleton
import proofs.«161981_g36034775613536_cont_8to1_b_1153_7_alg».proof.Proof.LibMatmulTransLeftAt
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.ValueIdx

/-! ## Where the two kinds of matrix product read their operands

Both dimension records contract axis 0 of the left operand with axis 0 of the right and have no batch axis: at output
entry `i` and contraction index `q` the left operand is read at (q, i 0) and the right at (q, i 1). -/

theorem wide_lhs_0 (i : S32x12800.Idx) (q : dot_S32x32_S32x12800_S32x12800_0_0_1_1_n_n.contr.Idx) :
    (dot_S32x32_S32x12800_S32x12800_0_0_1_1_n_n.lhsIdx i q 0).val = (q ⟨0, by decide⟩).val :=
  dot_S32x32_S32x12800_S32x12800_0_0_1_1_n_n.lhsIdx_val_of_single rfl i q
theorem wide_lhs_1 (i : S32x12800.Idx) (q : dot_S32x32_S32x12800_S32x12800_0_0_1_1_n_n.contr.Idx) :
    (dot_S32x32_S32x12800_S32x12800_0_0_1_1_n_n.lhsIdx i q 1).val = (i 0).val := by
  unfold DotDims.lhsIdx
  rw [dif_neg (show ¬(1 : Fin S32x32.rank) ∈ dot_S32x32_S32x12800_S32x12800_0_0_1_1_n_n.lhsBatch by decide), dif_pos (show (1 : Fin S32x32.rank) ∈ dot_S32x32_S32x12800_S32x12800_0_0_1_1_n_n.lhsNonContracting by decide)]
  rfl
theorem wide_rhs_0 (i : S32x12800.Idx) (q : dot_S32x32_S32x12800_S32x12800_0_0_1_1_n_n.contr.Idx) :
    (dot_S32x32_S32x12800_S32x12800_0_0_1_1_n_n.rhsIdx i q 0).val = (q ⟨0, by decide⟩).val :=
  dot_S32x32_S32x12800_S32x12800_0_0_1_1_n_n.rhsIdx_val_of_single rfl i q
theorem wide_rhs_1 (i : S32x12800.Idx) (q : dot_S32x32_S32x12800_S32x12800_0_0_1_1_n_n.contr.Idx) :
    (dot_S32x32_S32x12800_S32x12800_0_0_1_1_n_n.rhsIdx i q 1).val = (i 1).val := by
  unfold DotDims.rhsIdx
  rw [dif_neg (show ¬(1 : Fin S32x12800.rank) ∈ dot_S32x32_S32x12800_S32x12800_0_0_1_1_n_n.rhsBatch by decide), dif_pos (show (1 : Fin S32x12800.rank) ∈ dot_S32x32_S32x12800_S32x12800_0_0_1_1_n_n.rhsNonContracting by decide)]
  rfl

theorem narrow_lhs_0 (i : S32x12800.Idx) (q : dot_S16x32_S16x12800_S32x12800_0_0_1_1_n_n.contr.Idx) :
    (dot_S16x32_S16x12800_S32x12800_0_0_1_1_n_n.lhsIdx i q 0).val = (q ⟨0, by decide⟩).val :=
  dot_S16x32_S16x12800_S32x12800_0_0_1_1_n_n.lhsIdx_val_of_single rfl i q
theorem narrow_lhs_1 (i : S32x12800.Idx) (q : dot_S16x32_S16x12800_S32x12800_0_0_1_1_n_n.contr.Idx) :
    (dot_S16x32_S16x12800_S32x12800_0_0_1_1_n_n.lhsIdx i q 1).val = (i 0).val := by
  unfold DotDims.lhsIdx
  rw [dif_neg (show ¬(1 : Fin S16x32.rank) ∈ dot_S16x32_S16x12800_S32x12800_0_0_1_1_n_n.lhsBatch by decide), dif_pos (show (1 : Fin S16x32.rank) ∈ dot_S16x32_S16x12800_S32x12800_0_0_1_1_n_n.lhsNonContracting by decide)]
  rfl
theorem narrow_rhs_0 (i : S32x12800.Idx) (q : dot_S16x32_S16x12800_S32x12800_0_0_1_1_n_n.contr.Idx) :
    (dot_S16x32_S16x12800_S32x12800_0_0_1_1_n_n.rhsIdx i q 0).val = (q ⟨0, by decide⟩).val :=
  dot_S16x32_S16x12800_S32x12800_0_0_1_1_n_n.rhsIdx_val_of_single rfl i q
theorem narrow_rhs_1 (i : S32x12800.Idx) (q : dot_S16x32_S16x12800_S32x12800_0_0_1_1_n_n.contr.Idx) :
    (dot_S16x32_S16x12800_S32x12800_0_0_1_1_n_n.rhsIdx i q 1).val = (i 1).val := by
  unfold DotDims.rhsIdx
  rw [dif_neg (show ¬(1 : Fin S16x12800.rank) ∈ dot_S16x32_S16x12800_S32x12800_0_0_1_1_n_n.rhsBatch by decide), dif_pos (show (1 : Fin S16x12800.rank) ∈ dot_S16x32_S16x12800_S32x12800_0_0_1_1_n_n.rhsNonContracting by decide)]
  rfl

/-- Entry (j, n) of a 32-feature product into zero: the weights' column `j` against the data's column `n`. -/
theorem wide_product_at (w : FVec Ideal S32x32 .f32) (x : FVec Ideal S32x12800 .f32) (j : Fin 32) (n : Fin 12800) :
    FloatOps.matmul dot_S32x32_S32x12800_S32x12800_0_0_1_1_n_n none w x (constant (F := Ideal) S32x12800 .f32 0x00000000#32) (ix2 j n)
      = ∑ k : Fin 32, w (ix2 k j) * x (ix2 k n) :=
  MatmulTransLeftAt.matmul_zero_transLeft_at dot_S32x32_S32x12800_S32x12800_0_0_1_1_n_n rfl rfl wide_lhs_0 wide_lhs_1 wide_rhs_0 wide_rhs_1 none w x j n

/-- Entry (j, n) of the 16-feature product into zero. -/
theorem narrow_product_at (w : FVec Ideal S16x32 .f32) (x : FVec Ideal S16x12800 .f32) (j : Fin 32) (n : Fin 12800) :
    FloatOps.matmul dot_S16x32_S16x12800_S32x12800_0_0_1_1_n_n none w x (constant (F := Ideal) S32x12800 .f32 0x00000000#32) (ix2 j n)
      = ∑ k : Fin 16, w (ix2 k j) * x (ix2 k n) :=
  MatmulTransLeftAt.matmul_zero_transLeft_at dot_S16x32_S16x12800_S32x12800_0_0_1_1_n_n rfl rfl narrow_lhs_0 narrow_lhs_1 narrow_rhs_0 narrow_rhs_1 none w x j n

/-- Lane 0 of the bias tile, broadcast along the edges, read at (j, n): the tile's entry (j, 0). -/
theorem bias_column_at (v : FVec Ideal S32x128 .f32) (hs : S32x128.Slices ![0, 0] S32x1) (hb : S32x1.Broadcasts S32x12800)
    (j : Fin 32) (n : Fin 12800) :
    broadcastTo S32x12800 (extractStridedSlice S32x1 ![0, 0] v hs) hb (ix2 j n) = v (ix2 j (0 : Fin 128)) := by
  refine (broadcastTo_apply (extractStridedSlice S32x1 ![0, 0] v hs) hb (ix2 j n) (ix2 j (0 : Fin 1)) (fun a => ?_)).trans ?_
  · match a with
    | ⟨0, _⟩ => show j.val = if (32 : Nat) = 1 then 0 else j.val; rw [if_neg (by decide)]
    | ⟨1, _⟩ => show 0 = if (1 : Nat) = 1 then 0 else n.val; rw [if_pos rfl]
  · exact extractStridedSlice_apply ![0, 0] v hs (ix2 j (0 : Fin 1)) (ix2 j (0 : Fin 128)) (fun a => by
      match a with
      | ⟨0, _⟩ => show j.val = 0 + j.val; omega
      | ⟨1, _⟩ => rfl)

/-- THE STORED BLOCK at entry (j, n): the three products, the bias column, the cut at zero. -/
theorem stored_at (v0 : Vec Ideal S32x32 .f32) (v1 : Vec Ideal S32x12800 .f32) (v4 : Vec Ideal S16x32 .f32)
    (v5 : Vec Ideal S16x12800 .f32) (v8 : Vec Ideal S32x32 .f32) (v9 : Vec Ideal S32x12800 .f32)
    (v14 : Vec Ideal S32x128 .f32) (j : Fin 32) (n : Fin 12800) :
    k0_pay1 (F := Ideal) v0 v1 v4 v5 v8 v9 v14 (ix2 j n)
      = max ((((∑ k : Fin 32, v0 (ix2 k j) * v1 (ix2 k n)) + ∑ k : Fin 16, v4 (ix2 k j) * v5 (ix2 k n))
          + ∑ k : Fin 32, v8 (ix2 k j) * v9 (ix2 k n)) + v14 (ix2 j (0 : Fin 128))) (Ideal.ofBits .f32 0x00000000#32) := by
  unfold k0_pay1
  simp only [maximumf_apply, addf_apply, broadcast_apply, shapeCast_self, matmul, wide_product_at, narrow_product_at,
    bias_column_at]
  rfl

end Cert.KernelIdeal.BlockValue

end
-- ==== Proof.MessageSpec.lean ====
/-
  The edge-message function, entry by entry over the extended reals.

  For edge `n` (of 1,600,000) and output feature `j` (of 32) the message is

      msg[n, j] = max (((Σₖ x₁[n,k]·w₁[k,j] + Σₖ x₂[n,k]·w₂[k,j]) + Σₖ x₃[n,k]·w₃[k,j]) + b[0,j]) 0

  with `x₁`, `x₃` of 32 and `x₂` of 16 input features. One program computes exactly this; the other works with
  features along the rows and edges along the columns: it is handed the transposes `X = xᵀ` and a bias column `B`
  repeated along 128 lanes, and computes

      msgT[j, n] = max (((Σₖ w₁[k,j]·X₁[k,n] + Σₖ w₂[k,j]·X₂[k,n]) + Σₖ w₃[k,j]·X₃[k,n]) + B[j,0]) 0.

  The two are the same number: the three sums and the bias are added in the same order, and inside each sum only
  the two factors of every product change places. Commutativity of the product holds for every pair of extended
  reals, infinite ones included, so nothing is asked of the inputs.
-/
import Idealize.ShloMosaic.PureOps.Ideal
import Idealize.ShloMosaic.Lib.ValueIdx

noncomputable section

namespace Cert.Message

open Idealize.ShloMosaic Idealize.ShloMosaic.ValueIdx

/-- The message of edge `i 0` at output feature `i 1`: three row-times-matrix sums and the bias, cut off below at zero. -/
def msg (x₁ : FVec Ideal (⟨2, ![1600000, 32]⟩ : Shape) .f32) (x₂ : FVec Ideal (⟨2, ![1600000, 16]⟩ : Shape) .f32)
    (x₃ : FVec Ideal (⟨2, ![1600000, 32]⟩ : Shape) .f32) (w₁ : FVec Ideal (⟨2, ![32, 32]⟩ : Shape) .f32)
    (w₂ : FVec Ideal (⟨2, ![16, 32]⟩ : Shape) .f32) (w₃ : FVec Ideal (⟨2, ![32, 32]⟩ : Shape) .f32)
    (b : FVec Ideal (⟨2, ![1, 32]⟩ : Shape) .f32) : FVec Ideal (⟨2, ![1600000, 32]⟩ : Shape) .f32 :=
  fun i => max ((((∑ k : Fin 32, x₁ (ix2 (i 0) k) * w₁ (ix2 k (i 1))) + ∑ k : Fin 16, x₂ (ix2 (i 0) k) * w₂ (ix2 k (i 1)))
      + ∑ k : Fin 32, x₃ (ix2 (i 0) k) * w₃ (ix2 k (i 1))) + b (ix2 (0 : Fin 1) (i 1))) (Ideal.ofBits .f32 0x00000000#32)

/-- The same with features along the rows: output feature `i 0`, edge `i 1`, the weights read down their columns and
    the bias taken from lane 0 of its row. -/
def msgT (X₁ : FVec Ideal (⟨2, ![32, 1600000]⟩ : Shape) .f32) (X₂ : FVec Ideal (⟨2, ![16, 1600000]⟩ : Shape) .f32)
    (X₃ : FVec Ideal (⟨2, ![32, 1600000]⟩ : Shape) .f32) (w₁ : FVec Ideal (⟨2, ![32, 32]⟩ : Shape) .f32)
    (w₂ : FVec Ideal (⟨2, ![16, 32]⟩ : Shape) .f32) (w₃ : FVec Ideal (⟨2, ![32, 32]⟩ : Shape) .f32)
    (B : FVec Ideal (⟨2, ![32, 128]⟩ : Shape) .f32) : FVec Ideal (⟨2, ![32, 1600000]⟩ : Shape) .f32 :=
  fun i => max ((((∑ k : Fin 32, w₁ (ix2 k (i 0)) * X₁ (ix2 k (i 1))) + ∑ k : Fin 16, w₂ (ix2 k (i 0)) * X₂ (ix2 k (i 1)))
      + ∑ k : Fin 32, w₃ (ix2 k (i 0)) * X₃ (ix2 k (i 1))) + B (ix2 (i 0) (0 : Fin 128))) (Ideal.ofBits .f32 0x00000000#32)

/-- Entry (j, n) of the feature-major form is entry (n, j) of the message function, when each `X` is the transpose of
    its `x` and lane 0 of row `j` of `B` is `b[0, j]`: the factors of each product change places, nothing else moves. -/
theorem msgT_at (x₁ : FVec Ideal (⟨2, ![1600000, 32]⟩ : Shape) .f32) (x₂ : FVec Ideal (⟨2, ![1600000, 16]⟩ : Shape) .f32)
    (x₃ : FVec Ideal (⟨2, ![1600000, 32]⟩ : Shape) .f32)
    (X₁ : FVec Ideal (⟨2, ![32, 1600000]⟩ : Shape) .f32) (X₂ : FVec Ideal (⟨2, ![16, 1600000]⟩ : Shape) .f32)
    (X₃ : FVec Ideal (⟨2, ![32, 1600000]⟩ : Shape) .f32) (w₁ : FVec Ideal (⟨2, ![32, 32]⟩ : Shape) .f32)
    (w₂ : FVec Ideal (⟨2, ![16, 32]⟩ : Shape) .f32) (w₃ : FVec Ideal (⟨2, ![32, 32]⟩ : Shape) .f32)
    (b : FVec Ideal (⟨2, ![1, 32]⟩ : Shape) .f32) (B : FVec Ideal (⟨2, ![32, 128]⟩ : Shape) .f32)
    (h₁ : ∀ (k : Fin 32) (n : Fin 1600000), X₁ (ix2 k n) = x₁ (ix2 n k))
    (h₂ : ∀ (k : Fin 16) (n : Fin 1600000), X₂ (ix2 k n) = x₂ (ix2 n k))
    (h₃ : ∀ (k : Fin 32) (n : Fin 1600000), X₃ (ix2 k n) = x₃ (ix2 n k))
    (hB : ∀ j : Fin 32, B (ix2 j (0 : Fin 128)) = b (ix2 (0 : Fin 1) j))
    (j : Fin 32) (n : Fin 1600000) :
    msgT X₁ X₂ X₃ w₁ w₂ w₃ B (ix2 j n) = msg x₁ x₂ x₃ w₁ w₂ w₃ b (ix2 n j) := by
  have e₁ : (∑ k : Fin 32, w₁ (ix2 k j) * X₁ (ix2 k n)) = ∑ k : Fin 32, x₁ (ix2 n k) * w₁ (ix2 k j) :=
    Finset.sum_congr rfl fun k _ => by rw [h₁, mul_comm]
  have e₂ : (∑ k : Fin 16, w₂ (ix2 k j) * X₂ (ix2 k n)) = ∑ k : Fin 16, x₂ (ix2 n k) * w₂ (ix2 k j) :=
    Finset.sum_congr rfl fun k _ => by rw [h₂, mul_comm]
  have e₃ : (∑ k : Fin 32, w₃ (ix2 k j) * X₃ (ix2 k n)) = ∑ k : Fin 32, x₃ (ix2 n k) * w₃ (ix2 k j) :=
    Finset.sum_congr rfl fun k _ => by rw [h₃, mul_comm]
  show max ((((∑ k : Fin 32, w₁ (ix2 k j) * X₁ (ix2 k n)) + ∑ k : Fin 16, w₂ (ix2 k j) * X₂ (ix2 k n))
      + ∑ k : Fin 32, w₃ (ix2 k j) * X₃ (ix2 k n)) + B (ix2 j (0 : Fin 128))) (Ideal.ofBits .f32 0x00000000#32)
    = max ((((∑ k : Fin 32, x₁ (ix2 n k) * w₁ (ix2 k j)) + ∑ k : Fin 16, x₂ (ix2 n k) * w₂ (ix2 k j))
      + ∑ k : Fin 32, x₃ (ix2 n k) * w₃ (ix2 k j)) + b (ix2 (0 : Fin 1) j)) (Ideal.ofBits .f32 0x00000000#32)
  rw [e₁, e₂, e₃, hB]

end Cert.Message

end
-- ==== Proof.ArrayValue.lean ====
/-
  From the blocks to the array.

  The output is written 125 times, grid step `t` writing columns `t·12800 … t·12800 + 12799` of the 32×1,600,000 array
  (all 32 rows). At step `t` the three data windows hold the same columns of their arrays, and the three weight windows
  and the bias window hold their whole arrays (their block never moves). So what step `t` writes back is block `t` of
  ONE function of the arrays the region finds, `Cert.Message.msgT`; the 125 blocks tile the array — column `N` lies in
  step `N / 12800`'s block — and the array after the run is that function.
-/
import proofs.«161981_g36034775613536_cont_8to1_b_1153_7_alg».proof.Proof.Gen.KernelIdeal.Frame
import proofs.«161981_g36034775613536_cont_8to1_b_1153_7_alg».proof.Proof.BlockValue
import proofs.«161981_g36034775613536_cont_8to1_b_1153_7_alg».proof.Proof.MessageSpec
import Idealize.ShloMosaic.Lib.Pipeline.Value
import Idealize.ShloMosaic.Lib.ValueIdx

set_option maxRecDepth 16384

noncomputable section

namespace Cert.KernelIdeal.ArrayValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

theorem zero_offsets : (![0, 0] : Fin 2 → Nat) = fun _ => 0 := funext fun a => by fin_cases a <;> rfl

/-- Column `n` of grid step `t`'s block is column `t·12800 + n` of the array. -/
def col (t : Nat) (ht : t < 125) (n : Fin 12800) : Fin 1600000 := ⟨t * 12800 + n.val, by have := n.isLt; omega⟩

/-- The printed index maps, decided over the 125 grid steps: the data windows and the output sit at block (0, t), the
    weight and bias windows at block (0, 0). -/
theorem block_indices : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = t.val :=
  (by decide +kernel : ∀ t : Fin grid0.N, _)

/-- ONE GRID STEP, over plain matrices: if the data blocks are columns `t·12800 + n` of the data arrays and the weight
    and bias blocks are the whole arrays, the stored entry (j, n) is `msgT` at (j, t·12800 + n). -/
theorem stored_eq_msgT (X₁ : FVec Ideal S32x1600000 .f32) (X₂ : FVec Ideal S16x1600000 .f32) (X₃ : FVec Ideal S32x1600000 .f32)
    (W₁ : FVec Ideal S32x32 .f32) (W₂ : FVec Ideal S16x32 .f32) (W₃ : FVec Ideal S32x32 .f32) (B : FVec Ideal S32x128 .f32)
    (w1 : Vec Ideal S32x32 .f32) (b1 : Vec Ideal S32x12800 .f32) (w2 : Vec Ideal S16x32 .f32) (b2 : Vec Ideal S16x12800 .f32)
    (w3 : Vec Ideal S32x32 .f32) (b3 : Vec Ideal S32x12800 .f32) (bb : Vec Ideal S32x128 .f32)
    (t : Nat) (ht : t < 125)
    (hw1 : w1 = W₁) (hw2 : w2 = W₂) (hw3 : w3 = W₃) (hbb : bb = B)
    (h1 : ∀ (k : Fin 32) (n : Fin 12800), b1 (ix2 k n) = X₁ (ix2 k (col t ht n)))
    (h2 : ∀ (k : Fin 16) (n : Fin 12800), b2 (ix2 k n) = X₂ (ix2 k (col t ht n)))
    (h3 : ∀ (k : Fin 32) (n : Fin 12800), b3 (ix2 k n) = X₃ (ix2 k (col t ht n)))
    (j : Fin 32) (n : Fin 12800) :
    k0_pay1 (F := Ideal) w1 b1 w2 b2 w3 b3 bb (ix2 j n) = Cert.Message.msgT X₁ X₂ X₃ W₁ W₂ W₃ B (ix2 j (col t ht n)) := by
  subst hw1 hw2 hw3 hbb
  rw [BlockValue.stored_at]
  show _ = max ((((∑ k : Fin 32, w1 (ix2 k j) * X₁ (ix2 k (col t ht n))) + ∑ k : Fin 16, w2 (ix2 k j) * X₂ (ix2 k (col t ht n)))
      + ∑ k : Fin 32, w3 (ix2 k j) * X₃ (ix2 k (col t ht n))) + bb (ix2 j (0 : Fin 128))) (Ideal.ofBits .f32 0x00000000#32)
  simp only [h1, h2, h3]

/-- The output array after the run, as one function of the arrays the region finds. -/
abbrev outArray (c : Dev nD) : FVec Ideal S32x1600000 .f32 :=
  Cert.Message.msgT (V m c main_v0) (V m c main_v1) (V m c main_v2) (V m c main_arg3) (V m c main_arg4) (V m c main_arg5) (V m c main_v6)

/-! ## Each window's block at a grid step, read off its array -/

theorem weights1_blk (c : Dev nD) (t : Fin cfg0.N) : (iblk m c 3 t : Vec Ideal S32x32 .f32) = V m c main_arg3 := by
  obtain ⟨-, -, -, -, -, -, e0, e1, -, -, -, -, -, -, -, -⟩ := block_indices t
  funext z
  show V m c main_arg3 (((cfg0.win 3).blk t).view.emb z) = V m c main_arg3 z
  refine congrArg _ (funext fun a => Fin.ext ?_)
  match a with
  | ⟨0, _⟩ => show win0_3.index t (0 : Fin 2) * 32 + 1 * (z 0).val = (z 0).val; omega
  | ⟨1, _⟩ => show win0_3.index t (1 : Fin 2) * 32 + 1 * (z 1).val = (z 1).val; omega

theorem weights2_blk (c : Dev nD) (t : Fin cfg0.N) : (iblk m c 4 t : Vec Ideal S16x32 .f32) = V m c main_arg4 := by
  obtain ⟨-, -, -, -, -, -, -, -, e0, e1, -, -, -, -, -, -⟩ := block_indices t
  funext z
  show V m c main_arg4 (((cfg0.win 4).blk t).view.emb z) = V m c main_arg4 z
  refine congrArg _ (funext fun a => Fin.ext ?_)
  match a with
  | ⟨0, _⟩ => show win0_4.index t (0 : Fin 2) * 16 + 1 * (z 0).val = (z 0).val; omega
  | ⟨1, _⟩ => show win0_4.index t (1 : Fin 2) * 32 + 1 * (z 1).val = (z 1).val; omega

theorem weights3_blk (c : Dev nD) (t : Fin cfg0.N) : (iblk m c 5 t : Vec Ideal S32x32 .f32) = V m c main_arg5 := by
  obtain ⟨-, -, -, -, -, -, -, -, -, -, e0, e1, -, -, -, -⟩ := block_indices t
  funext z
  show V m c main_arg5 (((cfg0.win 5).blk t).view.emb z) = V m c main_arg5 z
  refine congrArg _ (funext fun a => Fin.ext ?_)
  match a with
  | ⟨0, _⟩ => show win0_5.index t (0 : Fin 2) * 32 + 1 * (z 0).val = (z 0).val; omega
  | ⟨1, _⟩ => show win0_5.index t (1 : Fin 2) * 32 + 1 * (z 1).val = (z 1).val; omega

theorem bias_blk (c : Dev nD) (t : Fin cfg0.N) : (iblk m c 6 t : Vec Ideal S32x128 .f32) = V m c main_v6 := by
  obtain ⟨-, -, -, -, -, -, -, -, -, -, -, -, e0, e1, -, -⟩ := block_indices t
  funext z
  show V m c main_v6 (((cfg0.win 6).blk t).view.emb z) = V m c main_v6 z
  refine congrArg _ (funext fun a => Fin.ext ?_)
  match a with
  | ⟨0, _⟩ => show win0_6.index t (0 : Fin 2) * 32 + 1 * (z 0).val = (z 0).val; omega
  | ⟨1, _⟩ => show win0_6.index t (1 : Fin 2) * 128 + 1 * (z 1).val = (z 1).val; omega

theorem data1_blk (c : Dev nD) (t : Fin cfg0.N) (ht : t.val < 125) (k : Fin 32) (n : Fin 12800) :
    (iblk m c 0 t : Vec Ideal S32x12800 .f32) (ix2 k n) = V m c main_v0 (ix2 k (col t.val ht n)) := by
  obtain ⟨e0, e1, -, -, -, -, -, -, -, -, -, -, -, -, -, -⟩ := block_indices t
  show V m c main_v0 (((cfg0.win 0).blk t).view.emb (ix2 k n)) = _
  refine congrArg _ (funext fun a => Fin.ext ?_)
  match a with
  | ⟨0, _⟩ => show win0_0.index t (0 : Fin 2) * 32 + 1 * k.val = k.val; omega
  | ⟨1, _⟩ => show win0_0.index t (1 : Fin 2) * 12800 + 1 * n.val = t.val * 12800 + n.val; omega

theorem data2_blk (c : Dev nD) (t : Fin cfg0.N) (ht : t.val < 125) (k : Fin 16) (n : Fin 12800) :
    (iblk m c 1 t : Vec Ideal S16x12800 .f32) (ix2 k n) = V m c main_v1 (ix2 k (col t.val ht n)) := by
  obtain ⟨-, -, e0, e1, -, -, -, -, -, -, -, -, -, -, -, -⟩ := block_indices t
  show V m c main_v1 (((cfg0.win 1).blk t).view.emb (ix2 k n)) = _
  refine congrArg _ (funext fun a => Fin.ext ?_)
  match a with
  | ⟨0, _⟩ => show win0_1.index t (0 : Fin 2) * 16 + 1 * k.val = k.val; omega
  | ⟨1, _⟩ => show win0_1.index t (1 : Fin 2) * 12800 + 1 * n.val = t.val * 12800 + n.val; omega

theorem data3_blk (c : Dev nD) (t : Fin cfg0.N) (ht : t.val < 125) (k : Fin 32) (n : Fin 12800) :
    (iblk m c 2 t : Vec Ideal S32x12800 .f32) (ix2 k n) = V m c main_v2 (ix2 k (col t.val ht n)) := by
  obtain ⟨-, -, -, -, e0, e1, -, -, -, -, -, -, -, -, -, -⟩ := block_indices t
  show V m c main_v2 (((cfg0.win 2).blk t).view.emb (ix2 k n)) = _
  refine congrArg _ (funext fun a => Fin.ext ?_)
  match a with
  | ⟨0, _⟩ => show win0_2.index t (0 : Fin 2) * 32 + 1 * k.val = k.val; omega
  | ⟨1, _⟩ => show win0_2.index t (1 : Fin 2) * 12800 + 1 * n.val = t.val * 12800 + n.val; omega

/-! ## What a grid step writes back, and the array -/

/-- WHAT STEP `t` WRITES BACK is block `t` of `outArray`: the body's one store covers its buffer, its payload at (j, n)
    is `msgT` at (j, t·12800 + n) by the step lemma, and that is where entry (j, n) of block `t` sits in the array. -/
theorem flushed_eq (c : Dev nD) (t : Fin cfg0.N) :
    (dats m 0 c).flushed 7 t = ((cfg0.win 7).blk t).view.read (Elt Ideal) (outArray m c) := by
  have ht : t.val < 125 := lt_of_lt_of_eq t.isLt N_0
  show (cfg0.win 7).cut (grid0.coords t) ((dats m 0 c).after 7 t) = _
  rw [after0_7]
  unfold out0_7
  rw [View.canon_unit_zero zero_offsets]
  simp only [View.ld_unit_zero (S := S32x12800) zero_offsets, View.ld_unit_zero (S := S32x32) zero_offsets,
    View.ld_unit_zero (S := S16x32) zero_offsets, View.ld_unit_zero (S := S16x12800) zero_offsets,
    View.ld_unit_zero (S := S32x128) zero_offsets]
  funext y
  obtain ⟨j, n, rfl⟩ : ∃ (j : Fin 32) (n : Fin 12800), y = ix2 j n := ⟨y 0, y 1, eq_ix2 y⟩
  obtain ⟨-, -, -, -, -, -, -, -, -, -, -, -, -, -, e0, e1⟩ := block_indices t
  have he : ((cfg0.win 7).blk t).view.emb (ix2 j n) = ix2 j (col t.val ht n) := funext fun a => Fin.ext (by
    match a with
    | ⟨0, _⟩ => show win0_7.index t (0 : Fin 2) * 32 + 1 * j.val = j.val; omega
    | ⟨1, _⟩ => show win0_7.index t (1 : Fin 2) * 12800 + 1 * n.val = t.val * 12800 + n.val; omega)
  show k0_pay1 (F := Ideal) (iblk m c 3 t) (iblk m c 0 t) (iblk m c 4 t) (iblk m c 1 t) (iblk m c 5 t) (iblk m c 2 t) (iblk m c 6 t) (ix2 j n)
    = outArray m c (((cfg0.win 7).blk t).view.emb (ix2 j n))
  rw [he]
  exact stored_eq_msgT (V m c main_v0) (V m c main_v1) (V m c main_v2) (V m c main_arg3) (V m c main_arg4) (V m c main_arg5) (V m c main_v6)
    (iblk m c 3 t) (iblk m c 0 t) (iblk m c 4 t) (iblk m c 1 t) (iblk m c 5 t) (iblk m c 2 t) (iblk m c 6 t) t.val ht
    (weights1_blk m c t) (weights2_blk m c t) (weights3_blk m c t) (bias_blk m c t)
    (data1_blk m c t ht) (data2_blk m c t ht) (data3_blk m c t ht) j n

/-- An entry of the array is in step `t`'s block iff each coordinate is in the block's range on its axis. -/
theorem mem_blk (t : Fin cfg0.N) (i : S32x1600000.Idx) :
    i ∈ ((cfg0.win 7).blk t).view.set ↔ ∀ a : Fin 2, win0_7.index t a * S32x12800.size a ≤ (i a).val ∧ (i a).val < win0_7.index t a * S32x12800.size a + S32x12800.size a := by
  show i ∈ ((View.whole main_v7).slice (win0_7.rect t)).set ↔ _
  rw [View.set_slice_whole, Rect.mem_set_unit]
  exact Iff.rfl

/-- THE COVER: column `N` of the array is in the block of step `N / 12800`, which is written back. -/
theorem covered (i : S32x1600000.Idx) :
    ∃ t : Fin cfg0.N, (cfg0.win 7).flush t = true ∧ i ∈ ((cfg0.win 7).blk t).view.set := by
  have hi0 : (i 0).val < 32 := (i 0).isLt
  have hi1 : (i 1).val < 1600000 := (i 1).isLt
  have hq : (i 1).val / 12800 < 125 := by omega
  obtain ⟨-, -, -, -, -, -, -, -, -, -, -, -, -, -, e0, e1⟩ := block_indices (⟨(i 1).val / 12800, lt_of_lt_of_eq hq N_0.symm⟩ : Fin cfg0.N)
  have e1' : win0_7.index (⟨(i 1).val / 12800, lt_of_lt_of_eq hq N_0.symm⟩ : Fin cfg0.N) (1 : Fin 2) = (i 1).val / 12800 := e1
  refine ⟨⟨(i 1).val / 12800, lt_of_lt_of_eq hq N_0.symm⟩, flush0_7 _, ?_⟩
  rw [mem_blk]
  intro a
  match a with
  | ⟨0, _⟩ =>
    show win0_7.index _ (0 : Fin 2) * 32 ≤ (i 0).val ∧ (i 0).val < win0_7.index _ (0 : Fin 2) * 32 + 32
    omega
  | ⟨1, _⟩ =>
    show win0_7.index _ (1 : Fin 2) * 12800 ≤ (i 1).val ∧ (i 1).val < win0_7.index _ (1 : Fin 2) * 12800 + 12800
    omega

/-- THE ARRAY after the run is `msgT` of the arrays the region finds. -/
theorem array_eq (c : Dev nD) : (dats m 0 c).arrAt 7 cfg0.N = outArray m c :=
  (dats m 0 c).arrAt_eq_of_cover 7 (outArray m c) (fun t _ => flushed_eq m c t) covered

end Cert.KernelIdeal.ArrayValue

end
-- ==== Proof.KernelValue.lean ====
/-
  The kernel program's result, as a function of its seven arguments.

  Before the region the host lines transpose the three data arrays (features to the rows, edges to the columns) and
  build the bias tile: the 1×32 bias row is reshaped to a column, given two unit axes, repeated along a new axis of 128
  and reshaped to 32×128, so that entry (j, l) of the tile is `b[0, j]` for every lane `l`. The region leaves
  `msgT` of those arrays (the array module), and the one host line after it transposes that back. Entry (n, j) of the
  result is therefore `msgT` at (j, n) of the transposed data — which is the message function at (n, j) of the data.
-/
import proofs.«161981_g36034775613536_cont_8to1_b_1153_7_alg».proof.Proof.Gen.KernelIdeal.Frame
import proofs.«161981_g36034775613536_cont_8to1_b_1153_7_alg».proof.Proof.ArrayValue
import proofs.«161981_g36034775613536_cont_8to1_b_1153_7_alg».proof.Proof.MessageSpec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.KernelValue

open Cert.KernelIdeal Cert.KernelIdeal.Gen Cert.KernelIdeal.ArrayValue
open Idealize.ShloMosaic Idealize.ShloMosaic.TcCoe Idealize.ShloMosaic.ValueIdx Idealize.SL.Sem Idealize.ShloMosaic.StableHlo

variable (m : (ℓ : Loc nD τ sig) → Buf (Elt Ideal) ℓ)

/-! ## What the region finds -/

/-- The first data array as the region finds it: the argument transposed. -/
theorem found_data1_at (c : Dev nD) (k : Fin 32) (n : Fin 1600000) :
    V m c main_v0 (ix2 k n) = m ((c.tc : Thread nD τ).loc main_arg0) (ix2 n k) := by
  have e : (V m c main_v0 : S32x1600000.Idx → EReal)
      = transpose S32x1600000 [1, 0] (m ((c.tc : Thread nD τ).loc main_arg0)) transposes_S1600000x32_S32x1600000_1_0 := by
    show StableHlo.after hostOps0 (fun b => m (c, b)) (Proc.devRef .tc main_v0) = _
    after_results <;> rfl
  exact (congrFun e (ix2 k n)).trans (transpose_ix2_apply _ _ k n)

/-- The second (16-feature) data array as the region finds it. -/
theorem found_data2_at (c : Dev nD) (k : Fin 16) (n : Fin 1600000) :
    V m c main_v1 (ix2 k n) = m ((c.tc : Thread nD τ).loc main_arg1) (ix2 n k) := by
  have e : (V m c main_v1 : S16x1600000.Idx → EReal)
      = transpose S16x1600000 [1, 0] (m ((c.tc : Thread nD τ).loc main_arg1)) transposes_S1600000x16_S16x1600000_1_0 := by
    show StableHlo.after hostOps0 (fun b => m (c, b)) (Proc.devRef .tc main_v1) = _
    after_results <;> rfl
  exact (congrFun e (ix2 k n)).trans (transpose_ix2_apply _ _ k n)

/-- The third data array as the region finds it. -/
theorem found_data3_at (c : Dev nD) (k : Fin 32) (n : Fin 1600000) :
    V m c main_v2 (ix2 k n) = m ((c.tc : Thread nD τ).loc main_arg2) (ix2 n k) := by
  have e : (V m c main_v2 : S32x1600000.Idx → EReal)
      = transpose S32x1600000 [1, 0] (m ((c.tc : Thread nD τ).loc main_arg2)) transposes_S1600000x32_S32x1600000_1_0 := by
    show StableHlo.after hostOps0 (fun b => m (c, b)) (Proc.devRef .tc main_v2) = _
    after_results <;> rfl
  exact (congrFun e (ix2 k n)).trans (transpose_ix2_apply _ _ k n)

/-- The bias tile, over a plain bias row: column, two unit axes, 128 copies, 32×128 — entry (j, l) is `b[0, j]`. -/
theorem bias_tile_at (b : FVec Ideal S1x32 .f32) (h1 : S1x32.ShapeCasts S32x1) (h2 : S32x1.ShapeCasts S1x32x1x1)
    (h3 : S1x32x1x1.BroadcastsInDim S1x32x128x1 ![0, 1, 2, 3]) (h4 : S1x32x128x1.ShapeCasts S32x128)
    (j : Fin 32) (l : Fin 128) :
    shapeCast S32x128 (broadcastInDim S1x32x128x1 ![0, 1, 2, 3] h3 (shapeCast S1x32x1x1 (shapeCast S32x1 b h1) h2)) h4 (ix2 j l)
      = b (ix2 (0 : Fin 1) j) := by
  refine (shapeCast_apply _ h4 (ix2 j l) (ix4 (0 : Fin 1) j l (0 : Fin 1)) ?_).trans ?_
  · rw [Shape.rowMajor_val_four, Shape.rowMajor_val_two]
    show (((0 : Nat) * 32 + j.val) * 128 + l.val) * 1 + 0 = j.val * 128 + l.val
    omega
  refine (broadcastInDim_apply ![0, 1, 2, 3] h3 _ (ix4 (0 : Fin 1) j l (0 : Fin 1)) (ix4 (0 : Fin 1) j (0 : Fin 1) (0 : Fin 1)) (fun a => ?_)).trans ?_
  · match a with
    | ⟨0, _⟩ => show (0 : Nat) = if (1 : Nat) = 1 then 0 else 0; rw [if_pos rfl]
    | ⟨1, _⟩ => show j.val = if (32 : Nat) = 1 then 0 else j.val; rw [if_neg (by decide)]
    | ⟨2, _⟩ => show (0 : Nat) = if (1 : Nat) = 1 then 0 else l.val; rw [if_pos rfl]
    | ⟨3, _⟩ => show (0 : Nat) = if (1 : Nat) = 1 then 0 else 0; rw [if_pos rfl]
  refine (shapeCast_apply _ h2 (ix4 (0 : Fin 1) j (0 : Fin 1) (0 : Fin 1)) (ix2 j (0 : Fin 1)) ?_).trans ?_
  · rw [Shape.rowMajor_val_two, Shape.rowMajor_val_four]
    show j.val * 1 + 0 = (((0 : Nat) * 32 + j.val) * 1 + 0) * 1 + 0
    omega
  exact shapeCast_apply b h1 (ix2 j (0 : Fin 1)) (ix2 (0 : Fin 1) j) (by
    rw [Shape.rowMajor_val_two, Shape.rowMajor_val_two]
    show (0 : Nat) * 32 + j.val = j.val * 1 + 0
    omega)

/-- The bias tile as the region finds it: lane 0 of row `j` (any lane, in fact) is `b[0, j]`. -/
theorem found_bias_at (c : Dev nD) (j : Fin 32) :
    V m c main_v6 (ix2 j (0 : Fin 128)) = m ((c.tc : Thread nD τ).loc main_arg6) (ix2 (0 : Fin 1) j) := by
  have e : (V m c main_v6 : S32x128.Idx → EReal)
      = shapeCast S32x128 (broadcastInDim S1x32x128x1 ![0, 1, 2, 3] bcast_S1x32x1x1_S1x32x128x1_0_1_2_3
          (shapeCast S1x32x1x1 (shapeCast S32x1 (m ((c.tc : Thread nD τ).loc main_arg6)) shapeCasts_S1x32_S32x1) shapeCasts_S32x1_S1x32x1x1))
          shapeCasts_S1x32x128x1_S32x128 := by
    show StableHlo.after hostOps0 (fun b => m (c, b)) (Proc.devRef .tc main_v6) = _
    after_results
    rfl
  exact (congrFun e (ix2 j (0 : Fin 128))).trans (bias_tile_at _ _ _ _ _ j 0)

/-! ## The result -/

/-- Entry (n, j) of the result buffer after the host line that follows the region: entry (j, n) of the region's array. -/
theorem result_at (c : Dev nD) (n : Fin 1600000) (j : Fin 32) :
    Pipeline.afterTail₀ cfgs (dats m) 0 (V0 m) [hostOps1] c main_v8 (ix2 n j) = outArray m c (ix2 j n) := by
  have e : (Pipeline.afterTail₀ cfgs (dats m) 0 (V0 m) [hostOps1] c main_v8 : S1600000x32.Idx → EReal)
      = transpose S1600000x32 [1, 0] (outArray m c) transposes_S32x1600000_S1600000x32_1_0 := by
    unfold Pipeline.afterTail₀
    show StableHlo.after hostOps1 _ (Proc.devRef .tc main_v8) = _
    after_results
    exact congrArg (fun x => transpose S1600000x32 [1, 0] x transposes_S32x1600000_S1600000x32_1_0)
      ((Pipeline.withArrays_arr spec0 launch0.win.arr_inj c _ _ 7).trans (array_eq m c))
  exact (congrFun e (ix2 n j)).trans (transpose_ix2_apply _ _ n j)

/-- THE RESULT is the message function of the seven arguments. -/
theorem result_eq_msg (c : Dev nD) :
    (Pipeline.afterTail₀ cfgs (dats m) 0 (V0 m) [hostOps1] c main_v8 : S1600000x32.Idx → EReal)
      = Cert.Message.msg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  obtain ⟨n, j, rfl⟩ : ∃ (n : Fin 1600000) (j : Fin 32), i = ix2 n j := ⟨i 0, i 1, eq_ix2 i⟩
  rw [result_at]
  show Cert.Message.msgT (V m c main_v0) (V m c main_v1) (V m c main_v2) (V m c main_arg3) (V m c main_arg4) (V m c main_arg5) (V m c main_v6) (ix2 j n) = _
  rw [V_main_arg3 m c, V_main_arg4 m c, V_main_arg5 m c]
  exact Cert.Message.msgT_at (m ((c.tc : Thread nD τ).loc main_arg0)) (m ((c.tc : Thread nD τ).loc main_arg1)) (m ((c.tc : Thread nD τ).loc main_arg2))
    (V m c main_v0) (V m c main_v1) (V m c main_v2) (m ((c.tc : Thread nD τ).loc main_arg3)) (m ((c.tc : Thread nD τ).loc main_arg4)) (m ((c.tc : Thread nD τ).loc main_arg5))
    (m ((c.tc : Thread nD τ).loc main_arg6)) (V m c main_v6)
    (found_data1_at m c) (found_data2_at m c) (found_data3_at m c) (found_bias_at m c) j n

/-! ## The run -/

/-- Every weakly fair execution of the kernel program terminates with the result buffer at the message function of
    the arguments, and the arguments unchanged: the frame run, with its post read. -/
theorem run (ρ : Dev nD → PrngReg) :
    θ_run defs (onTc (τ := τ) (main (F := Ideal))) ⟨m, fun _ => 0, ρ⟩ (fun r => ∀ c : Dev nD,
      r.2.mem ((c.tc : Thread nD τ).loc main_v8) = Cert.Message.msg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).2 main_v8 (Pipeline.mem_restRefs_of main_v8 (by decide) (by decide))).trans (result_eq_msg m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c)⟩)
    (run_main m ρ)

end Cert.KernelIdeal.KernelValue

end
-- ==== Proof.RefValue.lean ====
/-
  The reference program computes the message function.

  Its ten operations are read one at a time at an index: each `dot_general` is a sum over its contracted axis of a row
  entry of the data times a column entry of the weights, the bias is broadcast down the edges from its one row, the
  constant is the zero word, and the last operation is the maximum with it. Put together at index (n, j) that is
  `Cert.Message.msg` at (n, j), term for term: the same sums, added in the same order.
-/
import proofs.«161981_g36034775613536_cont_8to1_b_1153_7_alg».proof.Proof.Gen.ReferenceIdeal.Read
import proofs.«161981_g36034775613536_cont_8to1_b_1153_7_alg».proof.Proof.MessageSpec

noncomputable section

namespace Cert.ReferenceIdeal.RefValue

open Cert.ReferenceIdeal Cert.ReferenceIdeal.Read Idealize.ShloMosaic Idealize.ShloMosaic.ValueIdx

/-! The index functions of the read-at-an-index lemmas are the coordinate constructors: a data matrix is read at
    (edge, k), a weight matrix at (k, feature), the bias at (0, feature). -/

theorem data_idx32 (i : S1600000x32.Idx) (k : Fin 32) : lidx_main_v0 i k = ix2 (i 0) k :=
  funext fun a => by match a with | ⟨0, _⟩ => rfl | ⟨1, _⟩ => rfl
theorem weight_idx32 (i : S1600000x32.Idx) (k : Fin 32) : ridx_main_v0 i k = ix2 k (i 1) :=
  funext fun a => by match a with | ⟨0, _⟩ => rfl | ⟨1, _⟩ => rfl
theorem data_idx16 (i : S1600000x32.Idx) (k : Fin 16) : lidx_main_v1 i k = ix2 (i 0) k :=
  funext fun a => by match a with | ⟨0, _⟩ => rfl | ⟨1, _⟩ => rfl
theorem weight_idx16 (i : S1600000x32.Idx) (k : Fin 16) : ridx_main_v1 i k = ix2 k (i 1) :=
  funext fun a => by match a with | ⟨0, _⟩ => rfl | ⟨1, _⟩ => rfl
theorem data_idx32' (i : S1600000x32.Idx) (k : Fin 32) : lidx_main_v3 i k = ix2 (i 0) k :=
  funext fun a => by match a with | ⟨0, _⟩ => rfl | ⟨1, _⟩ => rfl
theorem weight_idx32' (i : S1600000x32.Idx) (k : Fin 32) : ridx_main_v3 i k = ix2 k (i 1) :=
  funext fun a => by match a with | ⟨0, _⟩ => rfl | ⟨1, _⟩ => rfl
theorem bias_idx (i : S1600000x32.Idx) : idx_main_v5 i = ix2 (0 : Fin 1) (i 1) :=
  funext fun a => by match a with | ⟨0, _⟩ => rfl | ⟨1, _⟩ => rfl

/-- The reference's last stage, as a function of the seven argument arrays, is the message function. -/
theorem stage_eq_msg (x0 : (⟨S1600000x32, .f32⟩ : BufTy).Contents (Elt Ideal)) (x1 : (⟨S1600000x16, .f32⟩ : BufTy).Contents (Elt Ideal))
    (x2 : (⟨S1600000x32, .f32⟩ : BufTy).Contents (Elt Ideal)) (x3 : (⟨S32x32, .f32⟩ : BufTy).Contents (Elt Ideal))
    (x4 : (⟨S16x32, .f32⟩ : BufTy).Contents (Elt Ideal)) (x5 : (⟨S32x32, .f32⟩ : BufTy).Contents (Elt Ideal))
    (x6 : (⟨S1x32, .f32⟩ : BufTy).Contents (Elt Ideal)) :
    val_main_v7 (F := Ideal) x0 x1 x2 x3 x4 x5 x6 = Cert.Message.msg x0 x1 x2 x3 x4 x5 x6 := by
  funext i
  rw [val_main_v7_apply, val_main_v6_apply, val_main_v4_apply, val_main_v2_apply, val_main_v0_apply, val_main_v1_apply,
    val_main_v3_apply, val_main_v5_apply, val_main_call0_v0_apply, val_main_call0_cst_apply]
  simp only [data_idx32, weight_idx32, data_idx16, weight_idx16, data_idx32', weight_idx32', bias_idx,
    Ideal.addf_def, Ideal.maximumf_def, Ideal.ofBits_def]
  rfl

end Cert.ReferenceIdeal.RefValue

end
-- ==== Proof.lean ====
/- relu(f_src·w₁ + f·w₂ + sum_msg·w₃ + b) over 1,600,000 edges, computed two ways.

   The reference forms the three products edge-major ([1600000 × 32]·[32 × 32], [1600000 × 16]·[16 × 32],
   [1600000 × 32]·[32 × 32]), adds them left to right, adds the bias row broadcast down the edges, and takes the maximum
   with zero. The kernel program transposes the three data arrays, tiles the bias into a 32 × 128 block, streams 125
   blocks of 12,800 edges through a body that contracts the FEATURE axis of weights and data (so it computes
   `wᵀ·xᵀ`, features along the rows), adds in the same order, takes the maximum with zero, and transposes the result back.

   Over the extended reals both results are, at edge `n` and feature `j`,

       max (((Σₖ x₁[n,k]·w₁[k,j] + Σₖ x₂[n,k]·w₂[k,j]) + Σₖ x₃[n,k]·w₃[k,j]) + b[0,j]) 0

   (`Cert.Message.msg`): the reference term for term (Proof/RefValue.lean), the kernel after the factors of every
   product change places (Proof/MessageSpec.lean `msgT_at`), which is commutativity of the product and holds at
   infinite values too — so the precondition is never opened. The kernel side is read off the frame run: one grid
   step's stored block (Proof/BlockValue.lean), the 125 blocks tiling the array (Proof/ArrayValue.lean), the host lines
   around the region (Proof/KernelValue.lean). The ideal pass rewrote nothing, so `preserves` is `True`. -/
import proofs.«161981_g36034775613536_cont_8to1_b_1153_7_alg».proof.Defs
import proofs.«161981_g36034775613536_cont_8to1_b_1153_7_alg».proof.Proof.Gen.Kernel
import proofs.«161981_g36034775613536_cont_8to1_b_1153_7_alg».proof.Proof.Gen.Kernel.Skeleton
import proofs.«161981_g36034775613536_cont_8to1_b_1153_7_alg».proof.Proof.Gen.Kernel.Launch
import proofs.«161981_g36034775613536_cont_8to1_b_1153_7_alg».proof.Proof.Gen.Kernel.Points
import proofs.«161981_g36034775613536_cont_8to1_b_1153_7_alg».proof.Proof.Gen.Kernel.Frame
import proofs.«161981_g36034775613536_cont_8to1_b_1153_7_alg».proof.Proof.Gen.KernelIdeal
import proofs.«161981_g36034775613536_cont_8to1_b_1153_7_alg».proof.Proof.Gen.KernelIdeal.Skeleton
import proofs.«161981_g36034775613536_cont_8to1_b_1153_7_alg».proof.Proof.Gen.KernelIdeal.Launch
import proofs.«161981_g36034775613536_cont_8to1_b_1153_7_alg».proof.Proof.Gen.KernelIdeal.Points
import proofs.«161981_g36034775613536_cont_8to1_b_1153_7_alg».proof.Proof.Gen.KernelIdeal.Frame
import proofs.«161981_g36034775613536_cont_8to1_b_1153_7_alg».proof.Proof.Gen.ReferenceIdeal
import proofs.«161981_g36034775613536_cont_8to1_b_1153_7_alg».proof.Proof.Gen.ReferenceIdeal.Run
import proofs.«161981_g36034775613536_cont_8to1_b_1153_7_alg».proof.Proof.Gen.ReferenceIdeal.Read
import proofs.«161981_g36034775613536_cont_8to1_b_1153_7_alg».proof.Proof.Gen.Pre_finite_inputs
import proofs.«161981_g36034775613536_cont_8to1_b_1153_7_alg».proof.Proof.KernelValue
import proofs.«161981_g36034775613536_cont_8to1_b_1153_7_alg».proof.Proof.RefValue
import Idealize.ShloMosaic.Adequacy
import Idealize.ShloMosaic.Init

noncomputable section

namespace Cert.Proof

open Idealize.ShloMosaic Idealize.SL.Sem

/-- The word-level kernel program terminates without a fault and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the idealized kernel. -/
theorem preserves : Cert.preserves_Kernel_KernelIdeal := trivial

/-- From memories that agree on the seven arguments both programs end with the message function of those arguments in
    their result buffer. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2]
  exact (Cert.ReferenceIdeal.Read.val_main_v7_eq _ _ _ _ _ _ _).trans (Cert.ReferenceIdeal.RefValue.stage_eq_msg _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
